-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel

variable [Facts]

def fn {F : FTy → Type} [FloatOps F] (main_arg0 : FVec F S256x4096 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  main_v3
-- ==== Kernel.lean ====
abbrev S256x4096 : Shape := ⟨2, ![256, 4096]⟩
abbrev S256x64x4096 : Shape := ⟨3, ![256, 64, 4096]⟩
abbrev S256x512 : Shape := ⟨2, ![256, 512]⟩
abbrev S256x64x512 : Shape := ⟨3, ![256, 64, 512]⟩
abbrev S256x1x512 : Shape := ⟨3, ![256, 1, 512]⟩

abbrev nBuf : Space → Nat
  | .hbm => 2
  | .vmem => 4
  | .smem => 0
  | _ => 0

abbrev bufTy : (tb : Table) → Fin (tcTables nBuf tb) → BufTy
  | .hbm, ⟨0, _⟩ => ⟨S256x4096, .f32⟩
  | .hbm, ⟨1, _⟩ => ⟨S256x64x4096, .f32⟩
  | .local _ .vmem, ⟨0, _⟩ => ⟨S256x512, .f32⟩
  | .local _ .vmem, ⟨1, _⟩ => ⟨S256x512, .f32⟩
  | .local _ .vmem, ⟨2, _⟩ => ⟨S256x64x512, .f32⟩
  | .local _ .vmem, ⟨3, _⟩ => ⟨S256x64x512, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x512_S256x512_0_0 : ∀ a, (![0, 0] : Fin 2 → Nat) a + S256x512.size a ≤ S256x512.size a
  h_S256x512 : 0 < S256x512.numel
  iota_S256x64x512_d1_w32 : S256x64x512.Iotas .tc 32 [1]
  shapeCasts_S256x512_S256x1x512 : S256x512.ShapeCasts S256x1x512
  broadcasts_S256x1x512_S256x64x512 : S256x1x512.Broadcasts S256x64x512
  natLt_1_32 : 1 < 32
  inb_S256x64x512_S256x64x512_0_0_0 : ∀ a, (![0, 0, 0] : Fin 3 → Nat) a + S256x64x512.size a ≤ S256x64x512.size a
  h_S256x64x512 : 0 < S256x64x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S256x4096.size a
  hwx0_0 : ∀ i : grid0.Coords, EltTy.bits .f32 = 32 ∨ (Rect.block (s := S256x4096) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64x512.size a ≤ S256x64x4096.size a
  hwx0_1 : ∀ i : grid0.Coords, EltTy.bits .f32 = 32 ∨ (Rect.block (s := S256x64x4096) S256x64x512.size (cc0_transform_1 i) (hinb0_1 i)).WholeWords (EltTy.packing .f32)

variable [Facts₀]

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x64x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x4096 : Shape := ⟨2, ![256, 4096]⟩
abbrev S_ : Shape := ⟨0, ![]⟩
abbrev S256x4096x1 : Shape := ⟨3, ![256, 4096, 1]⟩
abbrev S1x1x64 : Shape := ⟨3, ![1, 1, 64]⟩
abbrev S256x4096x64 : Shape := ⟨3, ![256, 4096, 64]⟩
abbrev S256x64x4096 : Shape := ⟨3, ![256, 64, 4096]⟩

abbrev nBuf : Space → Nat
  | .hbm => 33
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S256x4096, .f32⟩
  | .hbm, ⟨2, _⟩ => ⟨S256x4096, .f32⟩
  | .hbm, ⟨3, _⟩ => ⟨S_, .f32⟩
  | .hbm, ⟨4, _⟩ => ⟨S256x4096, .f32⟩
  | .hbm, ⟨5, _⟩ => ⟨S256x4096, .f32⟩
  | .hbm, ⟨6, _⟩ => ⟨S_, .f32⟩
  | .hbm, ⟨7, _⟩ => ⟨S256x4096, .f32⟩
  | .hbm, ⟨8, _⟩ => ⟨S256x4096, .f32⟩
  | .hbm, ⟨9, _⟩ => ⟨S_, .f32⟩
  | .hbm, ⟨10, _⟩ => ⟨S256x4096, .f32⟩
  | .hbm, ⟨11, _⟩ => ⟨S256x4096, .f32⟩
  | .hbm, ⟨12, _⟩ => ⟨S256x4096, .f32⟩
  | .hbm, ⟨13, _⟩ => ⟨S_, .f32⟩
  | .hbm, ⟨14, _⟩ => ⟨S256x4096, .f32⟩
  | .hbm, ⟨15, _⟩ => ⟨S256x4096, .f32⟩
  | .hbm, ⟨16, _⟩ => ⟨S_, .f32⟩
  | .hbm, ⟨17, _⟩ => ⟨S_, .i32⟩
  | .hbm, ⟨18, _⟩ => ⟨S_, .f32⟩
  | .hbm, ⟨19, _⟩ => ⟨S256x4096, .f32⟩
  | .hbm, ⟨20, _⟩ => ⟨S256x4096, .f32⟩
  | .hbm, ⟨21, _⟩ => ⟨S_, .f32⟩
  | .hbm, ⟨22, _⟩ => ⟨S256x4096, .f32⟩
  | .hbm, ⟨23, _⟩ => ⟨S256x4096, .f32⟩
  | .hbm, ⟨24, _⟩ => ⟨S256x4096, .f32⟩
  | .hbm, ⟨25, _⟩ => ⟨S256x4096, .i32⟩
  | .hbm, ⟨26, _⟩ => ⟨S256x4096x1, .i32⟩
  | .hbm, ⟨27, _⟩ => ⟨S1x1x64, .i32⟩
  | .hbm, ⟨28, _⟩ => ⟨S256x4096x64, .i32⟩
  | .hbm, ⟨29, _⟩ => ⟨S256x4096x64, .i32⟩
  | .hbm, ⟨30, _⟩ => ⟨S256x4096x64, .i1⟩
  | .hbm, ⟨31, _⟩ => ⟨S256x4096x64, .f32⟩
  | .hbm, ⟨32, _⟩ => ⟨S256x64x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v14 : Ref sig .tc := ⟨.hbm, 31, rfl⟩
abbrev main_v15 : Ref sig .tc := ⟨.hbm, 32, rfl⟩

abbrev nD : Nat := 1
abbrev τ : Topo := Topo.v7x

variable {F : FTy → Type} [FloatOps F]

class Facts₀ : Prop where
  bcast_S_S256x4096 : S_.BroadcastsInDim S256x4096 (![] : Fin 0 → Fin S256x4096.rank)
  bcast_S256x4096_S256x4096x1_0_1 : S256x4096.BroadcastsInDim S256x4096x1 (![0, 1] : Fin 2 → Fin S256x4096x1.rank)
  bcast_S256x4096x1_S256x4096x64_0_1_2 : S256x4096x1.BroadcastsInDim S256x4096x64 (![0, 1, 2] : Fin 3 → Fin S256x4096x64.rank)
  bcast_S1x1x64_S256x4096x64_0_1_2 : S1x1x64.BroadcastsInDim S256x4096x64 (![0, 1, 2] : Fin 3 → Fin S256x4096x64.rank)
  transposes_S256x4096x64_S256x64x4096_0_2_1 : S256x4096x64.Transposes [0, 2, 1] S256x64x4096

variable [Facts₀]

class Facts : Prop extends Facts₀ where

variable [Facts]
-- ==== Proof.LatencySpec.lean ====
/-
  Latency coding of an activation, as one function on the extended reals.

  An input `x` fires at the time step `T(x) = ⌊clip(-10 · log(σ(x) + ε), 0, 63)⌋`, where `σ` is the logistic function
  `1 / (1 + e^(-x))` and `ε` the binary32 number nearest `1e-7`. The spike train of an array `x[b, n]` (256 × 4096) is
  the array `s[b, t, n]` (256 × 64 × 4096) that holds `1` where `t = T(x[b, n])` and `0` at every other step.

  Both programs compute this train. They spell three things differently, and the lemmas below say that the
  spellings agree: the logistic function written out as a quotient with the literal `1.0`; the upper clip bound as the
  integer `63` converted to a float instead of the literal `63.0`; and the one-bit comparison widened to a word and read
  as a signed integer instead of read directly as an unsigned one. None of them needs the input to be finite.
-/
import Idealize.ShloMosaic.PureOps.Ideal
import Idealize.ShloMosaic.Lib.ValueIdx

noncomputable section

namespace Cert.Latency

open Idealize.ShloMosaic Idealize.ShloMosaic.ValueIdx

/-- The step at which an input fires: the latency `-10 · log(σ(x) + ε)` clipped to `[0, 63]`, rounded down, as a
    32-bit integer. The four literals are kept as their binary32 words. -/
def fireStep (x : EReal) : BitVec 32 :=
  Ideal.fptosi 32 (Ideal.liftRound Int.floor
    (min (Ideal.ofBits .f32 0x427C0000#32)
      (max (Ideal.ofBits .f32 0x00000000#32)
        (Ideal.ofBits .f32 0xC1200000#32 * Ideal.log (Ideal.logistic x + Ideal.ofBits .f32 0x33D6BF95#32)))))

/-- A one-bit truth value as a number: `1` for true, `0` for false. -/
def mark (b : BitVec 1) : EReal := ((b.toNat : ℝ) : EReal)

/-- The spike train of `x`: at `(b, t, n)`, whether `x[b, n]` fires at step `t`. -/
def train (x : (⟨2, ![256, 4096]⟩ : Shape).Idx → EReal) : (⟨3, ![256, 64, 4096]⟩ : Shape).Idx → EReal :=
  fun j => mark (IntOp.cmpi .eq (fireStep (x (ix2 (j 0) (j 2)))) (BitVec.ofNat 32 (j 1).val))

/-- The binary32 word of `1.0` denotes `1`. -/
theorem ofBits_one : Ideal.ofBits .f32 0x3F800000#32 = 1 := by
  simp [Ideal.ofBits, Ideal.ieee, -EReal.coe_mul]; norm_num

/-- The binary32 word of `63.0` denotes `63`. -/
theorem ofBits_sixtyThree : Ideal.ofBits .f32 0x427C0000#32 = ((63 : ℝ) : EReal) := by
  simp [Ideal.ofBits, Ideal.ieee, -EReal.coe_mul]; norm_num

/-- The integer `63` read as a float is the literal `63.0`. -/
theorem sixtyThree_of_int : (((63#32 : BitVec 32).toInt : ℝ) : EReal) = Ideal.ofBits .f32 0x427C0000#32 := by
  rw [ofBits_sixtyThree, show (63#32 : BitVec 32).toInt = 63 by decide]; norm_num

/-- The logistic function written out, `1.0 / (1.0 + e^(-x))` with the quotient's corner cases, is the logistic
    function: that is its definition, once the literal is read as `1`. -/
theorem logistic_written_out (x : EReal) :
    Ideal.div (Ideal.ofBits .f32 0x3F800000#32) (Ideal.ofBits .f32 0x3F800000#32 + Ideal.exp (-x)) = Ideal.logistic x := by
  rw [ofBits_one]; rfl

/-- A one-bit value widened to a word with zeros and read as a signed integer is the bit: the widened word is `0` or
    `1`, never negative. -/
theorem mark_of_widened (b : BitVec 1) : (((b.setWidth 32).toInt : ℝ) : EReal) = mark b := by
  have h : (b.setWidth 32).toInt = (b.toNat : Int) := by
    by_cases h1 : b = 1#1
    · subst h1; decide
    · rw [eq_zero_of_ne_one h1]; decide
  unfold mark
  rw [h, Int.cast_natCast]

end Cert.Latency

end
-- ==== Proof.KernelBlock.lean ====
/-
  What the kernel body stores, read at one coordinate of the block.

  The body loads a 256 × 512 block `x`, computes each entry's firing step, lays the steps out as a 256 × 1 × 512 array,
  repeats them along the new middle axis to 256 × 64 × 512, compares with the middle coordinate, and stores the
  comparison as a float. So at `(b, t, n)` it stores whether `x[b, n]` fires at step `t`: the spike train of the block.
-/
import proofs.«178228_j72885595013562_1_alg».proof.Proof.Gen.KernelIdeal.Skeleton
import proofs.«178228_j72885595013562_1_alg».proof.Proof.LatencySpec
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx

/-- The steps laid out with a unit middle axis and repeated along it: at `(b, t, n)` the entry `(b, n)`. The unit axis
    keeps the row-major position, `(b · 1 + 0) · 512 + n = b · 512 + n`, and the repetition reads coordinate `0` on it. -/
theorem repeated_apply (v : IVec S256x512 32) (h1 : S256x512.ShapeCasts S256x1x512) (h2 : S256x1x512.Broadcasts S256x64x512)
    (b : Fin 256) (t : Fin 64) (n : Fin 512) :
    broadcastTo S256x64x512 (shapeCast S256x1x512 v h1) h2 (ix3 b t n) = v (ix2 b n) := by
  refine (broadcastTo_apply _ h2 (ix3 b t n) (ix3 b (0 : Fin 1) n) (fun a => ?_)).trans ?_
  · match a with
    | ⟨0, _⟩ => rfl
    | ⟨1, _⟩ => rfl
    | ⟨2, _⟩ => rfl
  · refine shapeCast_apply v h1 (ix3 b (0 : Fin 1) n) (ix2 b n) ?_
    rw [Shape.rowMajor_val_two, Shape.rowMajor_val_three]
    show b.val * 512 + n.val = (b.val * 1 + 0) * 512 + n.val
    omega

/-- The counter along the middle axis: at `(b, t, n)` the step `t`. -/
theorem counter_apply (h : S256x64x512.Iotas .tc 32 [1]) (b : Fin 256) (t : Fin 64) (n : Fin 512) :
    iota .tc S256x64x512 32 [1] h (ix3 b t n) = BitVec.ofNat 32 t.val :=
  iota_single_apply .tc S256x64x512 32 1 h (ix3 b t n)

/-- THE BLOCK'S VALUE: at `(b, t, n)` the body stores `1` if `x[b, n]` fires at step `t` and `0` otherwise. -/
theorem stored_apply (x : Vec Ideal S256x512 .f32) (b : Fin 256) (t : Fin 64) (n : Fin 512) :
    k0_pay1 (F := Ideal) x (ix3 b t n)
      = Cert.Latency.mark (IntOp.cmpi .eq (Cert.Latency.fireStep (x (ix2 b n))) (BitVec.ofNat 32 t.val)) := by
  unfold k0_pay1
  refine (congrArg (fun z : BitVec 1 => (((z.setWidth 32).toInt : ℝ) : EReal))
    (congrArg₂ (IntOp.cmpi .eq) (repeated_apply _ _ _ b t n) (counter_apply _ b t n))).trans ?_
  exact Cert.Latency.mark_of_widened _

end Cert.KernelIdeal.Block

end
-- ==== Proof.KernelArray.lean ====
/-
  From the blocks to the whole array: after the run the kernel's output holds the spike train of its input.

  Grid point `t` (of 8) stages columns `512·t … 512·t + 511` of the input and writes back the same columns of the output,
  all 256 rows and all 64 steps. The value written at `(b, s, n)` of the block depends only on the input at `(b, n)` of
  the staged block, so what point `t` writes is block `t` of the spike train of the whole input; and the 8 column blocks
  cover every index of the output, since column `k` lies in block `k / 512`.
-/
import proofs.«178228_j72885595013562_1_alg».proof.Proof.Gen.KernelIdeal.Value
import proofs.«178228_j72885595013562_1_alg».proof.Proof.KernelBlock

noncomputable section

namespace Cert.KernelIdeal.Train

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin3 : (![0, 0, 0] : Fin 3 → Nat) = fun _ => 0 := funext fun a => by fin_cases a <;> rfl

/-- The two index maps over the grid: both blocks start at row `0` (and the output's at step `0`), and the input's
    column block is the output's. -/
theorem maps_agree : ∀ t : Fin cfg0.N, win0_0.index t (0 : Fin 2) = 0
    ∧ win0_0.index t (1 : Fin 2) = win0_1.index t (2 : Fin 3)
    ∧ win0_1.index t (0 : Fin 3) = 0
    ∧ win0_1.index t (1 : Fin 3) = 0 :=
  (by decide +kernel : ∀ t : Fin grid0.N, _)

/-- Every one of the 8 column blocks is some point's. -/
theorem column_block_onto : ∀ q : Fin 8, ∃ t : Fin cfg0.N, win0_1.index t = ![0, 0, q.val] :=
  (by decide +kernel : ∀ q : Fin 8, ∃ t : Fin grid0.N, win0_1.index t = ![0, 0, q.val])

/-- The train read at an output index `e` from the input at the index `i` with `e`'s row and column, at `e`'s step. -/
theorem train_at (X : S256x4096.Idx → EReal) (i : S256x4096.Idx) (e : S256x64x4096.Idx) (s : Nat)
    (h0 : (i 0).val = (e 0).val) (h1 : (i 1).val = (e 2).val) (hs : (e 1).val = s) :
    Cert.Latency.mark (IntOp.cmpi .eq (Cert.Latency.fireStep (X i)) (BitVec.ofNat 32 s)) = Cert.Latency.train X e := by
  have hi : i = ix2 (e 0) (e 2) := funext fun a => Fin.ext (by
    match a with
    | ⟨0, _⟩ => exact h0
    | ⟨1, _⟩ => exact h1)
  unfold Cert.Latency.train
  rw [hi, hs]
  rfl

/-- WHAT POINT `t` WRITES BACK is block `t` of the spike train of the input array as the region finds it. -/
theorem flushed_eq (c : Dev nD) (t : Fin cfg0.N) :
    (dats m 0 c).flushed 1 t = ((cfg0.win 1).blk t).view.read (Elt Ideal) (Cert.Latency.train (V m c main_arg0)) := by
  rw [Cert.KernelIdeal.Value.flushed1]
  unfold out0_1
  rw [View.canon_unit_zero origin3]
  simp only [View.ld_unit_zero (S := S256x512) origin2]
  obtain ⟨e0, e1, e2, e3⟩ := maps_agree t
  funext j
  obtain ⟨b, s, n, rfl⟩ : ∃ (b : Fin 256) (s : Fin 64) (n : Fin 512), j = ix3 b s n := ⟨j 0, j 1, j 2, eq_ix3 j⟩
  show k0_pay1 (F := Ideal) (iblk m c 0 t) (ix3 b s n)
    = Cert.Latency.train (V m c main_arg0) (((cfg0.win 1).blk t).view.emb (ix3 b s n))
  refine (Cert.KernelIdeal.Block.stored_apply (iblk m c 0 t) b s n).trans ?_
  show Cert.Latency.mark (IntOp.cmpi .eq (Cert.Latency.fireStep (V m c main_arg0 (((cfg0.win 0).blk t).view.emb (ix2 b n)))) (BitVec.ofNat 32 s.val)) = _
  refine train_at (V m c main_arg0) (((cfg0.win 0).blk t).view.emb (ix2 b n)) (((cfg0.win 1).blk t).view.emb (ix3 b s n)) s.val ?_ ?_ ?_
  · show win0_0.index t (0 : Fin 2) * 256 + 1 * b.val = win0_1.index t (0 : Fin 3) * 256 + 1 * b.val
    omega
  · show win0_0.index t (1 : Fin 2) * 512 + 1 * n.val = win0_1.index t (2 : Fin 3) * 512 + 1 * n.val
    omega
  · show win0_1.index t (1 : Fin 3) * 64 + 1 * s.val = s.val
    omega

/-- An index of the output is in point `t`'s block iff each coordinate is in the block's range on its axis. -/
theorem mem_block (t : Fin cfg0.N) (i : S256x64x4096.Idx) :
    i ∈ ((cfg0.win 1).blk t).view.set ↔ ∀ a : Fin 3, win0_1.index t a * S256x64x512.size a ≤ (i a).val
      ∧ (i a).val < win0_1.index t a * S256x64x512.size a + S256x64x512.size a := by
  show i ∈ ((View.whole main_v0).slice (win0_1.rect t)).set ↔ _
  rw [View.set_slice_whole, Rect.mem_set_unit]
  exact Iff.rfl

/-- THE COVER: every index of the output is in the block of the point that owns its column block. -/
theorem covered (i : S256x64x4096.Idx) :
    ∃ t : Fin cfg0.N, (cfg0.win 1).flush t = true ∧ i ∈ ((cfg0.win 1).blk t).view.set := by
  have hi0 : (i 0).val < 256 := (i 0).isLt
  have hi1 : (i 1).val < 64 := (i 1).isLt
  have hi2 : (i 2).val < 4096 := (i 2).isLt
  obtain ⟨t, ht⟩ := column_block_onto ⟨(i 2).val / 512, by omega⟩
  have q0 : win0_1.index t (0 : Fin 3) = 0 := congrFun ht 0
  have q1 : win0_1.index t (1 : Fin 3) = 0 := congrFun ht 1
  have q2 : win0_1.index t (2 : Fin 3) = (i 2).val / 512 := congrFun ht 2
  refine ⟨t, flush0_1 t, ?_⟩
  rw [mem_block]
  intro a
  match a with
  | ⟨0, _⟩ => show win0_1.index t (0 : Fin 3) * 256 ≤ (i 0).val ∧ (i 0).val < win0_1.index t (0 : Fin 3) * 256 + 256; omega
  | ⟨1, _⟩ => show win0_1.index t (1 : Fin 3) * 64 ≤ (i 1).val ∧ (i 1).val < win0_1.index t (1 : Fin 3) * 64 + 64; omega
  | ⟨2, _⟩ => show win0_1.index t (2 : Fin 3) * 512 ≤ (i 2).val ∧ (i 2).val < win0_1.index t (2 : Fin 3) * 512 + 512; omega

/-- THE ARRAY after the run is the spike train of the input array. -/
theorem final (c : Dev nD) : (dats m 0 c).arrAt 1 cfg0.N = Cert.Latency.train (V m c main_arg0) :=
  (dats m 0 c).arrAt_eq_of_cover 1 (Cert.Latency.train (V m c main_arg0)) (fun t _ => flushed_eq m c t) covered

/-- THE RUN: every weakly fair execution ends with the output at the spike train of the input as launched, and the
    input unchanged. -/
theorem run : θ_run defs (onTc (τ := τ) (main (F := Ideal))) ⟨m, fun _ => 0, ρ⟩ fun r => ∀ c : Dev nD,
      r.2.mem ((c : Thread nD τ).loc main_v0) = Cert.Latency.train (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.Train

end
-- ==== Proof.ReferenceTrain.lean ====
/-
  The reference computes the spike train.

  Read at an output index `(b, t, n)`: the last transpose reads the one-hot array at `(b, n, t)`; there the comparison
  sets the step of the input at `(b, n)`, repeated along the last axis, against the counter `t`; and the step is the floor
  of the clipped latency. The reference writes the logistic function out as `1.0 / (1.0 + e^(-x))` and takes its upper
  clip bound from the integer `63`; both are the specification's terms (the two lemmas of the specification module).
-/
import proofs.«178228_j72885595013562_1_alg».proof.Proof.Gen.ReferenceIdeal.Read
import proofs.«178228_j72885595013562_1_alg».proof.Proof.LatencySpec

noncomputable section

namespace Cert.ReferenceIdeal.Train

open Cert.ReferenceIdeal Cert.ReferenceIdeal.Read Idealize.ShloMosaic Idealize.ShloMosaic.ValueIdx

/-- Through the transpose and the two repetitions, output index `(b, t, n)` reads the input at `(b, n)`. -/
theorem input_index (j : S256x64x4096.Idx) :
    idx_main_call1_v0 (idx_main_call1_v2 (idx_main_v15 j)) = ix2 (j 0) (j 2) :=
  funext fun a => Fin.ext (by
    match a with
    | ⟨0, _⟩ => rfl
    | ⟨1, _⟩ => rfl)

/-- THE REFERENCE'S RESULT, as the last stage of its run, is the spike train of its argument. -/
theorem result_eq_train (x : (⟨S256x4096, .f32⟩ : BufTy).Contents (Elt Ideal)) :
    val_main_v15 (F := Ideal) x = Cert.Latency.train x := by
  funext j
  simp only [val_main_v15_apply, val_main_v14_apply, val_main_call1_v4_apply, val_main_call1_v3_apply,
    val_main_call1_v2_apply, val_main_call1_v1_apply, val_main_call1_v0_apply, val_main_v13_apply, val_main_v12_apply,
    val_main_v11_apply, val_main_call0_v4_apply, val_main_call0_v3_apply, val_main_c_apply, val_main_call0_v2_apply,
    val_main_call0_v1_apply, val_main_call0_v0_apply, val_main_cst_3_apply, val_main_v10_apply, val_main_v9_apply,
    val_main_cst_2_apply, val_main_v8_apply, val_main_v7_apply, val_main_v6_apply, val_main_cst_1_apply,
    val_main_v5_apply, val_main_v4_apply, val_main_cst_0_apply, val_main_v3_apply, val_main_v2_apply,
    val_main_cst_apply, val_main_v1_apply, val_main_v0_apply, input_index]
  show Cert.Latency.mark (IntOp.cmpi .eq (Ideal.fptosi 32 (Ideal.liftRound Int.floor
      (min (((63#32 : BitVec 32).toInt : ℝ) : EReal)
        (max (Ideal.ofBits .f32 0x00000000#32)
          (Ideal.ofBits .f32 0xC1200000#32 * Ideal.log
            (Ideal.div (Ideal.ofBits .f32 0x3F800000#32) (Ideal.ofBits .f32 0x3F800000#32 + Ideal.exp (-(x (ix2 (j 0) (j 2)))))
              + Ideal.ofBits .f32 0x33D6BF95#32))))))
      (BitVec.ofNat 32 (j 1).val)) = _
  rw [Cert.Latency.sixtyThree_of_int, Cert.Latency.logistic_written_out]
  rfl

end Cert.ReferenceIdeal.Train

end
-- ==== Proof.lean ====
/-
  Latency coding: the kernel and the reference compute the same spike train.

  Both programs take an array `x[b, n]` (256 × 4096) and return `s[b, t, n]` (256 × 64 × 4096), where `s[b, t, n]` is `1` if
  `t = ⌊clip(-10 · log(σ(x[b, n]) + ε), 0, 63)⌋` and `0` otherwise (`σ` the logistic function, `ε` the binary32 number nearest
  `1e-7`). The kernel builds the train one block of 512 columns at a time, already in `(b, t, n)` order; the reference
  builds a one-hot array in `(b, n, t)` order and transposes it. Read as extended reals the two agree index by index:

  * the kernel's one logistic operation and the reference's `1.0 / (1.0 + e^(-x))` are one function, by definition of
    the former once the literal `1.0` is read as `1`;
  * the kernel's clip bound is the literal `63.0`, the reference's the integer `63` converted to a float: both `63`;
  * the kernel widens its one-bit comparison to a word before converting it, the reference converts the bit
    directly: both give `0` or `1`.

  Every other operation is the same on both sides, with the same literal words, so no law of arithmetic is used and the
  inputs' finiteness is not needed for the values. The specification is Proof/LatencySpec.lean; the kernel's block at a
  coordinate Proof/KernelBlock.lean; its whole output array Proof/KernelArray.lean; the reference Proof/ReferenceTrain.lean.

  The two kernel programs' runs (termination, no fault, the argument unchanged) are the generated frames; the
  reference's is its generated run with the result dropped. The idealization rewrote nothing, so `preserves` is `True`.
-/
import proofs.«178228_j72885595013562_1_alg».proof.Defs
import proofs.«178228_j72885595013562_1_alg».proof.Proof.Gen.Kernel
import proofs.«178228_j72885595013562_1_alg».proof.Proof.Gen.Kernel.Skeleton
import proofs.«178228_j72885595013562_1_alg».proof.Proof.Gen.Kernel.Launch
import proofs.«178228_j72885595013562_1_alg».proof.Proof.Gen.Kernel.Points
import proofs.«178228_j72885595013562_1_alg».proof.Proof.Gen.Kernel.Frame
import proofs.«178228_j72885595013562_1_alg».proof.Proof.Gen.KernelIdeal
import proofs.«178228_j72885595013562_1_alg».proof.Proof.Gen.KernelIdeal.Skeleton
import proofs.«178228_j72885595013562_1_alg».proof.Proof.Gen.KernelIdeal.Launch
import proofs.«178228_j72885595013562_1_alg».proof.Proof.Gen.KernelIdeal.Points
import proofs.«178228_j72885595013562_1_alg».proof.Proof.Gen.KernelIdeal.Frame
import proofs.«178228_j72885595013562_1_alg».proof.Proof.Gen.ReferenceIdeal
import proofs.«178228_j72885595013562_1_alg».proof.Proof.Gen.Pre_finite_inputs
import proofs.«178228_j72885595013562_1_alg».proof.Proof.Gen.KernelIdeal.Value
import proofs.«178228_j72885595013562_1_alg».proof.Proof.Gen.ReferenceIdeal.Run
import proofs.«178228_j72885595013562_1_alg».proof.Proof.Gen.ReferenceIdeal.Read
import proofs.«178228_j72885595013562_1_alg».proof.Proof.KernelArray
import proofs.«178228_j72885595013562_1_alg».proof.Proof.ReferenceTrain
import Idealize.ShloMosaic.Adequacy
import Idealize.ShloMosaic.Init

noncomputable section

namespace Cert.Proof

open Idealize.ShloMosaic Idealize.SL.Sem

/-- The kernel as printed runs and leaves its argument unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its argument unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the argument, the kernel's output array and the reference's result both end at the
    spike train of that argument. -/
theorem algebraic : Cert.algebraic_KernelIdeal_ReferenceIdeal := by
  intro m ρ m' ρ' _ hagree
  refine ⟨_, Cert.KernelIdeal.Train.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.Train.result_eq_train, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
